-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x64 : Shape := ⟨3, ![256, 512, 64]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S_ : Shape := ⟨0, ![]⟩

class Facts : Prop where
  bcast_S_S256x512x64 : S_.BroadcastsInDim S256x512x64 (![] : Fin 0 → Fin S256x512x64.rank)
  reducesTo_S256x512x64_S_d0_1_2 : S256x512x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part3 {F : FTy → Type} [FloatOps F] (main_arg11 : FVec F S2x128 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg11
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  main_v58

def fn_part2 {F : FTy → Type} [FloatOps F] (main_arg7 : FVec F S2x128 .f32) (main_arg8 : FVec F S2x128 .f32) (main_arg9 : FVec F S2x128 .f32) (main_arg10 : FVec F S2x128 .f32) (main_arg11 : FVec F S2x128 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg8
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg10
  let main_cst_18 : FVec F S_ .f32 := constant S_ .f32 0x7F800000#32
  let main_v50 : FVec F S2x128 .f32 := broadcastInDim S2x128 ![] bcast_S_S2x128 main_cst_18
  fn_part3 (F := F) main_arg11 main_v48 main_v49 main_v50

def fn_part1 {F : FTy → Type} [FloatOps F] (main_arg4 : FVec F S2x128x128 .f32) (main_arg5 : FVec F S2x128x128 .f32) (main_arg6 : FVec F S2x128 .f32) (main_arg7 : FVec F S2x128 .f32) (main_arg8 : FVec F S2x128 .f32) (main_arg9 : FVec F S2x128 .f32) (main_arg10 : FVec F S2x128 .f32) (main_arg11 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg6
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S256x512x64 .f32) (main_arg1 : FVec F S64x128 .f32) (main_arg2 : FVec F S128 .f32) (main_arg3 : FVec F S2x128x128 .f32) (main_arg4 : FVec F S2x128x128 .f32) (main_arg5 : FVec F S2x128x128 .f32) (main_arg6 : FVec F S2x128 .f32) (main_arg7 : FVec F S2x128 .f32) (main_arg8 : FVec F S2x128 .f32) (main_arg9 : FVec F S2x128 .f32) (main_arg10 : FVec F S2x128 .f32) (main_arg11 : FVec F S2x128 .f32) : IVec S_ 1 :=
  let main_v0 : FVec F S256x512x64 .f32 := Host.absf main_arg0
  let main_cst : FVec F S_ .f32 := constant S_ .f32 0x7F800000#32
  let main_v1 : FVec F S256x512x64 .f32 := broadcastInDim S256x512x64 ![] bcast_S_S256x512x64 main_cst
  let main_v2 : IVec S256x512x64 1 := cmpf .olt main_v0 main_v1
  let main_c : IVec S_ 1 := constantI S_ 1 1#1
  let main_v3 : IVec S_ 1 := (fun x v => Host.reduce IntOp.andi x v reducesTo_S256x512x64_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_arg6 main_arg7 main_arg8 main_arg9 main_arg10 main_arg11 main_v13 main_v16
-- ==== Kernel.lean ====
abbrev S256x512x64 : Shape := ⟨3, ![256, 512, 64]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S256x128 : Shape := ⟨2, ![256, 128]⟩
abbrev S16x512x64 : Shape := ⟨3, ![16, 512, 64]⟩
abbrev S16x128 : Shape := ⟨2, ![16, 128]⟩
abbrev S8192x64 : Shape := ⟨2, ![8192, 64]⟩
abbrev S8192x128 : Shape := ⟨2, ![8192, 128]⟩
abbrev S1x128 : Shape := ⟨2, ![1, 128]⟩
abbrev S1x128x128 : Shape := ⟨3, ![1, 128, 128]⟩
abbrev S128x128 : Shape := ⟨2, ![128, 128]⟩
abbrev S16x512x128 : Shape := ⟨3, ![16, 512, 128]⟩

abbrev nBuf : Space → Nat
  | .hbm => 13
  | .vmem => 15
  | .smem => 0
  | _ => 0

abbrev bufTy : (tb : Table) → Fin (tcTables nBuf tb) → BufTy
  | .hbm, ⟨0, _⟩ => ⟨S256x512x64, .f32⟩
  | .hbm, ⟨1, _⟩ => ⟨S64x128, .f32⟩
  | .hbm, ⟨2, _⟩ => ⟨S128, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S2x128, .f32⟩
  | .hbm, ⟨7, _⟩ => ⟨S2x128, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S2x128, .f32⟩
  | .hbm, ⟨12, _⟩ => ⟨S256x128, .f32⟩
  | .local _ .vmem, ⟨0, _⟩ => ⟨S16x512x64, .f32⟩
  | .local _ .vmem, ⟨1, _⟩ => ⟨S16x512x64, .f32⟩
  | .local _ .vmem, ⟨2, _⟩ => ⟨S64x128, .f32⟩
  | .local _ .vmem, ⟨3, _⟩ => ⟨S128, .f32⟩
  | .local _ .vmem, ⟨4, _⟩ => ⟨S2x128x128, .f32⟩
  | .local _ .vmem, ⟨5, _⟩ => ⟨S2x128x128, .f32⟩
  | .local _ .vmem, ⟨6, _⟩ => ⟨S2x128x128, .f32⟩
  | .local _ .vmem, ⟨7, _⟩ => ⟨S2x128, .f32⟩
  | .local _ .vmem, ⟨8, _⟩ => ⟨S2x128, .f32⟩
  | .local _ .vmem, ⟨9, _⟩ => ⟨S2x128, .f32⟩
  | .local _ .vmem, ⟨10, _⟩ => ⟨S2x128, .f32⟩
  | .local _ .vmem, ⟨11, _⟩ => ⟨S2x128, .f32⟩
  | .local _ .vmem, ⟨12, _⟩ => ⟨S2x128, .f32⟩
  | .local _ .vmem, ⟨13, _⟩ => ⟨S16x128, .f32⟩
  | .local _ .vmem, ⟨14, _⟩ => ⟨S16x128, .f32⟩
  | _, _ => ⟨S256x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S16x512x64_S16x512x64_0_0_0 : ∀ a, (![0, 0, 0] : Fin 3 → Nat) a + S16x512x64.size a ≤ S16x512x64.size a
  h_S16x512x64 : 0 < S16x512x64.numel
  bitsLt_bf16_f32 : FTy.bits .bf16 < FTy.bits .f32
  shapeCasts_S16x512x64_S8192x64 : S16x512x64.ShapeCasts S8192x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x128_S1x128_0_0 : ∀ a, (![0, 0] : Fin 2 → Nat) a + S1x128.size a ≤ S2x128.size a
  h_S1x128 : 0 < S1x128.numel
  shapeCasts_S1x128_S128 : S1x128.ShapeCasts S128
  inb_S2x128x128_S1x128x128_1_0_0 : ∀ a, (![1, 0, 0] : Fin 3 → Nat) a + S1x128x128.size a ≤ S2x128x128.size a
  inb_S2x128_S1x128_1_0 : ∀ a, (![1, 0] : Fin 2 → Nat) a + S1x128.size a ≤ S2x128.size a
  shapeCasts_S8192x128_S16x512x128 : S8192x128.ShapeCasts S16x512x128
  reduces_S16x512x128_S16x128 : S16x512x128.Reduces [1] S16x128
  inb_S16x128_S16x128_0_0 : ∀ a, (![0, 0] : Fin 2 → Nat) a + S16x128.size a ≤ S16x128.size a
  h_S16x128 : 0 < S16x128.numel
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x64.size a ≤ S256x512x64.size a
  hwx0_0 : ∀ i : grid0.Coords, EltTy.bits .f32 = 32 ∨ (Rect.block (s := S256x512x64) S16x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128x128.size a ≤ S2x128x128.size a
  hwx0_3 : ∀ i : grid0.Coords, EltTy.bits .f32 = 32 ∨ (Rect.block (s := S2x128x128) S2x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128x128.size a ≤ S2x128x128.size a
  hwx0_4 : ∀ i : grid0.Coords, EltTy.bits .f32 = 32 ∨ (Rect.block (s := S2x128x128) S2x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128x128.size a ≤ S2x128x128.size a
  hwx0_5 : ∀ i : grid0.Coords, EltTy.bits .f32 = 32 ∨ (Rect.block (s := S2x128x128) S2x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x128.size a ≤ S2x128.size a
  hwx0_7 : ∀ i : grid0.Coords, EltTy.bits .f32 = 32 ∨ (Rect.block (s := S2x128) S2x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x128.size a ≤ S2x128.size a
  hwx0_8 : ∀ i : grid0.Coords, EltTy.bits .f32 = 32 ∨ (Rect.block (s := S2x128) S2x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x128.size a ≤ S2x128.size a
  hwx0_9 : ∀ i : grid0.Coords, EltTy.bits .f32 = 32 ∨ (Rect.block (s := S2x128) S2x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x128.size a ≤ S2x128.size a
  hwx0_10 : ∀ i : grid0.Coords, EltTy.bits .f32 = 32 ∨ (Rect.block (s := S2x128) S2x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x128.size a ≤ S2x128.size a
  hwx0_11 : ∀ i : grid0.Coords, EltTy.bits .f32 = 32 ∨ (Rect.block (s := S2x128) S2x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x128.size a ≤ S256x128.size a
  hwx0_12 : ∀ i : grid0.Coords, EltTy.bits .f32 = 32 ∨ (Rect.block (s := S256x128) S16x128.size (cc0_transform_12 i) (hinb0_12 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S16x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0) S16x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S256x512x64 : Shape := ⟨3, ![256, 512, 64]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S256x512x128 : Shape := ⟨3, ![256, 512, 128]⟩
abbrev S1x1x128 : Shape := ⟨3, ![1, 1, 128]⟩
abbrev S1x128x128 : Shape := ⟨3, ![1, 128, 128]⟩
abbrev S128x128 : Shape := ⟨2, ![128, 128]⟩
abbrev S1x128 : Shape := ⟨2, ![1, 128]⟩
abbrev S_ : Shape := ⟨0, ![]⟩
abbrev S256x128 : Shape := ⟨2, ![256, 128]⟩

abbrev nBuf : Space → Nat
  | .hbm => 139
  | .vmem => 0
  | .smem => 0
  | _ => 0

abbrev hbmTy0_0 (i : Nat) : BufTy := match i % 128 with
  | 0 => ⟨S256x512x64, .f32⟩
  | 1 => ⟨S64x128, .f32⟩
  | 2 => ⟨S128, .f32⟩
  | 3 => ⟨S2x128x128, .f32⟩
  | 4 => ⟨S2x128x128, .f32⟩
  | 5 => ⟨S2x128x128, .f32⟩
  | 6 => ⟨S2x128, .f32⟩
  | 7 => ⟨S2x128, .f32⟩
  | 8 => ⟨S2x128, .f32⟩
  | 9 => ⟨S2x128, .f32⟩
  | 10 => ⟨S2x128, .f32⟩
  | 11 => ⟨S2x128, .f32⟩
  | 12 => ⟨S256x512x128, .f32⟩
  | 13 => ⟨S1x1x128, .f32⟩
  | 14 => ⟨S256x512x128, .f32⟩
  | 15 => ⟨S256x512x128, .f32⟩
  | 16 => ⟨S1x128x128, .f32⟩
  | 17 => ⟨S128x128, .f32⟩
  | 18 => ⟨S256x512x128, .f32⟩
  | 19 => ⟨S1x128, .f32⟩
  | 20 => ⟨S128, .f32⟩
  | 21 => ⟨S1x1x128, .f32⟩
  | 22 => ⟨S256x512x128, .f32⟩
  | 23 => ⟨S256x512x128, .f32⟩
  | 24 => ⟨S1x128, .f32⟩
  | 25 => ⟨S128, .f32⟩
  | 26 => ⟨S1x1x128, .f32⟩
  | 27 => ⟨S256x512x128, .f32⟩
  | 28 => ⟨S256x512x128, .f32⟩
  | 29 => ⟨S256x512x128, .f32⟩
  | 30 => ⟨S256x512x128, .f32⟩
  | 31 => ⟨S_, .f32⟩
  | 32 => ⟨S256x512x128, .f32⟩
  | 33 => ⟨S256x512x128, .f32⟩
  | 34 => ⟨S_, .f32⟩
  | 35 => ⟨S256x512x128, .f32⟩
  | 36 => ⟨S256x512x128, .f32⟩
  | 37 => ⟨S1x128x128, .f32⟩
  | 38 => ⟨S128x128, .f32⟩
  | 39 => ⟨S256x512x128, .f32⟩
  | 40 => ⟨S1x128, .f32⟩
  | 41 => ⟨S128, .f32⟩
  | 42 => ⟨S1x1x128, .f32⟩
  | 43 => ⟨S256x512x128, .f32⟩
  | 44 => ⟨S256x512x128, .f32⟩
  | 45 => ⟨S1x128, .f32⟩
  | 46 => ⟨S128, .f32⟩
  | 47 => ⟨S1x1x128, .f32⟩
  | 48 => ⟨S256x512x128, .f32⟩
  | 49 => ⟨S256x512x128, .f32⟩
  | 50 => ⟨S256x512x128, .f32⟩
  | 51 => ⟨S256x512x128, .f32⟩
  | 52 => ⟨S_, .f32⟩
  | 53 => ⟨S256x512x128, .f32⟩
  | 54 => ⟨S256x512x128, .f32⟩
  | 55 => ⟨S_, .f32⟩
  | 56 => ⟨S256x512x128, .f32⟩
  | 57 => ⟨S256x512x128, .f32⟩
  | 58 => ⟨S1x128x128, .f32⟩
  | 59 => ⟨S128x128, .f32⟩
  | 60 => ⟨S256x512x128, .f32⟩
  | 61 => ⟨S1x128, .f32⟩
  | 62 => ⟨S128, .f32⟩
  | 63 => ⟨S1x1x128, .f32⟩
  | 64 => ⟨S256x512x128, .f32⟩
  | 65 => ⟨S256x512x128, .f32⟩
  | 66 => ⟨S1x128, .f32⟩
  | 67 => ⟨S128, .f32⟩
  | 68 => ⟨S1x1x128, .f32⟩
  | 69 => ⟨S256x512x128, .f32⟩
  | 70 => ⟨S256x512x128, .f32⟩
  | 71 => ⟨S256x512x128, .f32⟩
  | 72 => ⟨S256x512x128, .f32⟩
  | 73 => ⟨S256x512x128, .f32⟩
  | 74 => ⟨S256x512x128, .f32⟩
  | 75 => ⟨S1x128x128, .f32⟩
  | 76 => ⟨S128x128, .f32⟩
  | 77 => ⟨S256x512x128, .f32⟩
  | 78 => ⟨S1x128, .f32⟩
  | 79 => ⟨S128, .f32⟩
  | 80 => ⟨S1x1x128, .f32⟩
  | 81 => ⟨S256x512x128, .f32⟩
  | 82 => ⟨S256x512x128, .f32⟩
  | 83 => ⟨S1x128, .f32⟩
  | 84 => ⟨S128, .f32⟩
  | 85 => ⟨S1x1x128, .f32⟩
  | 86 => ⟨S256x512x128, .f32⟩
  | 87 => ⟨S256x512x128, .f32⟩
  | 88 => ⟨S256x512x128, .f32⟩
  | 89 => ⟨S256x512x128, .f32⟩
  | 90 => ⟨S_, .f32⟩
  | 91 => ⟨S256x512x128, .f32⟩
  | 92 => ⟨S256x512x128, .f32⟩
  | 93 => ⟨S_, .f32⟩
  | 94 => ⟨S256x512x128, .f32⟩
  | 95 => ⟨S256x512x128, .f32⟩
  | 96 => ⟨S1x128x128, .f32⟩
  | 97 => ⟨S128x128, .f32⟩
  | 98 => ⟨S256x512x128, .f32⟩
  | 99 => ⟨S1x128, .f32⟩
  | 100 => ⟨S128, .f32⟩
  | 101 => ⟨S1x1x128, .f32⟩
  | 102 => ⟨S256x512x128, .f32⟩
  | 103 => ⟨S256x512x128, .f32⟩
  | 104 => ⟨S1x128, .f32⟩
  | 105 => ⟨S128, .f32⟩
  | 106 => ⟨S1x1x128, .f32⟩
  | 107 => ⟨S256x512x128, .f32⟩
  | 108 => ⟨S256x512x128, .f32⟩
  | 109 => ⟨S256x512x128, .f32⟩
  | 110 => ⟨S256x512x128, .f32⟩
  | 111 => ⟨S_, .f32⟩
  | 112 => ⟨S256x512x128, .f32⟩
  | 113 => ⟨S256x512x128, .f32⟩
  | 114 => ⟨S_, .f32⟩
  | 115 => ⟨S256x512x128, .f32⟩
  | 116 => ⟨S256x512x128, .f32⟩
  | 117 => ⟨S1x128x128, .f32⟩
  | 118 => ⟨S128x128, .f32⟩
  | 119 => ⟨S256x512x128, .f32⟩
  | 120 => ⟨S1x128, .f32⟩
  | 121 => ⟨S128, .f32⟩
  | 122 => ⟨S1x1x128, .f32⟩
  | 123 => ⟨S256x512x128, .f32⟩
  | 124 => ⟨S256x512x128, .f32⟩
  | 125 => ⟨S1x128, .f32⟩
  | 126 => ⟨S128, .f32⟩
  | 127 => ⟨S1x1x128, .f32⟩
  | _ => ⟨S256x512x64, .f32⟩

abbrev hbmTy0_1 (i : Nat) : BufTy := match i % 128 with
  | 0 => ⟨S256x512x128, .f32⟩
  | 1 => ⟨S256x512x128, .f32⟩
  | 2 => ⟨S256x512x128, .f32⟩
  | 3 => ⟨S256x512x128, .f32⟩
  | 4 => ⟨S256x512x128, .f32⟩
  | 5 => ⟨S256x512x128, .f32⟩
  | 6 => ⟨S_, .f32⟩
  | 7 => ⟨S256x128, .f32⟩
  | 8 => ⟨S_, .f32⟩
  | 9 => ⟨S256x128, .f32⟩
  | 10 => ⟨S256x128, .f32⟩
  | _ => ⟨S256x512x64, .f32⟩

abbrev hbmTy (i : Nat) : BufTy := match i / 128 with
  | 0 => hbmTy0_0 i
  | 1 => hbmTy0_1 i
  | _ => ⟨S256x512x64, .f32⟩

abbrev bufTy : (tb : Table) → Fin (tcTables nBuf tb) → BufTy
  | .hbm, ⟨i, _⟩ => hbmTy i
  | _, _ => ⟨S256x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_3 : Ref sig .tc := ⟨.hbm, 90, rfl⟩
abbrev main_v74 : Ref sig .tc := ⟨.hbm, 91, rfl⟩
abbrev main_v75 : Ref sig .tc := ⟨.hbm, 92, rfl⟩
abbrev main_cst_4 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_5 : Ref sig .tc := ⟨.hbm, 111, rfl⟩
abbrev main_v93 : Ref sig .tc := ⟨.hbm, 112, rfl⟩
abbrev main_v94 : Ref sig .tc := ⟨.hbm, 113, rfl⟩
abbrev main_cst_6 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_7 : Ref sig .tc := ⟨.hbm, 134, rfl⟩
abbrev main_v114 : Ref sig .tc := ⟨.hbm, 135, rfl⟩
abbrev main_cst_8 : Ref sig .tc := ⟨.hbm, 136, rfl⟩
abbrev main_v115 : Ref sig .tc := ⟨.hbm, 137, rfl⟩
abbrev main_v116 : Ref sig .tc := ⟨.hbm, 138, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S256x512x128_0_1_2 : S1x1x128.BroadcastsInDim S256x512x128 (![0, 1, 2] : Fin 3 → Fin S256x512x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S256x512x128 : S_.BroadcastsInDim S256x512x128 (![] : Fin 0 → Fin S256x512x128.rank)
  slices_S2x128x128_S1x128x128_1_0_0 : S2x128x128.Slices ![1, 0, 0] S1x128x128
  slices_S2x128_S1x128_1_0 : S2x128.Slices ![1, 0] S1x128
  reducesTo_S256x512x128_S256x128_d1 : S256x512x128.ReducesTo [1] S256x128
  h_S_ : 0 < S_.numel
  bcast_S_S256x128 : S_.BroadcastsInDim S256x128 (![] : Fin 0 → Fin S256x128.rank)
  dot_S256x512x64_S64x128_S256x512x128_2_0_01_1_n_n_wf : DotDims.WF S256x512x64 S64x128 S256x512x128 [2] [0] [0, 1] [1] [] []
  dot_S256x512x128_S128x128_S256x512x128_2_0_01_1_n_n_wf : DotDims.WF S256x512x128 S128x128 S256x512x128 [2] [0] [0, 1] [1] [] []

variable [Facts₀]

def dot_S256x512x64_S64x128_S256x512x128_2_0_01_1_n_n : DotDims S256x512x64 S64x128 S256x512x128 where
  lhsContracting := [2]
  rhsContracting := [0]
  lhsNonContracting := [0, 1]
  rhsNonContracting := [1]
  lhsBatch := []
  rhsBatch := []
  wf := dot_S256x512x64_S64x128_S256x512x128_2_0_01_1_n_n_wf
def dot_S256x512x128_S128x128_S256x512x128_2_0_01_1_n_n : DotDims S256x512x128 S128x128 S256x512x128 where
  lhsContracting := [2]
  rhsContracting := [0]
  lhsNonContracting := [0, 1]
  rhsNonContracting := [1]
  lhsBatch := []
  rhsBatch := []
  wf := dot_S256x512x128_S128x128_S256x512x128_2_0_01_1_n_n_wf

class Facts : Prop extends Facts₀ where

variable [Facts]
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.KerOps.lean ====
/-
  The kernel's layout operations read at one element, over the literal shapes of this kernel.

  A batch tile of 16 entries of 512 nodes is flattened to 8192 rows: row  a * 512 + n  is node n of entry a. The bias
  rows are loaded as [1, 128] slabs, flattened, given a unit axis again and repeated down the 8192 rows; a weight slab is
  loaded as [1, 128, 128] and its unit axis dropped. The lemmas here say where each of these reads its operand, and that
  the sum over the node axis of the un-flattened [16, 512, 128] array at (a, k) is the sum over n of entry (a, n, k).
-/
import Idealize.ShloMosaic.PureOps.Ideal.Laws
import Idealize.ShloMosaic.Lib.ValueIdx
import Idealize.ShloMosaic.Lib.ValueLayout
import Idealize.ShloMosaic.Lib.Pipeline.Value

noncomputable section

namespace Cert.TreeCell.KerOps

open Idealize.ShloMosaic Idealize.ShloMosaic.ValueIdx

variable {α : Type}

/-- Row `a * 512 + n` of the flattened tile: node `n` of tile entry `a`. -/
def row (a : Fin 16) (n : Fin 512) : Fin 8192 := ⟨a.val * 512 + n.val, by have := a.isLt; have := n.isLt; omega⟩

/-- The flattened feature tile at (row a n, f) is the tile at (a, n, f). -/
theorem flatten_apply (v : (⟨3, ![16, 512, 64]⟩ : Shape).Idx → α)
    (h : (⟨3, ![16, 512, 64]⟩ : Shape).ShapeCasts ⟨2, ![8192, 64]⟩) (a : Fin 16) (n : Fin 512) (f : Fin 64) :
    shapeCast ⟨2, ![8192, 64]⟩ v h (ix2 (row a n) f) = v (ix3 a n f) :=
  shapeCast_apply v h _ _ (by
    rw [Shape.rowMajor_val_three, Shape.rowMajor_val_two]
    rfl)

/-- The hidden rows given their tile shape back: entry (a, n, k) is row a n, column k. -/
theorem unflatten_apply (v : (⟨2, ![8192, 128]⟩ : Shape).Idx → α)
    (h : (⟨2, ![8192, 128]⟩ : Shape).ShapeCasts ⟨3, ![16, 512, 128]⟩) (a : Fin 16) (n : Fin 512) (k : Fin 128) :
    shapeCast ⟨3, ![16, 512, 128]⟩ v h (ix3 a n k) = v (ix2 (row a n) k) :=
  shapeCast_apply v h _ _ (by
    rw [Shape.rowMajor_val_three, Shape.rowMajor_val_two]
    rfl)

/-- A [1, 128] bias slab flattened, given its unit axis back and repeated down the rows: at (p, k) the slab at (0, k). -/
theorem bias_rows_apply (v : (⟨2, ![1, 128]⟩ : Shape).Idx → α)
    (h1 : (⟨2, ![1, 128]⟩ : Shape).ShapeCasts ⟨1, ![128]⟩) (h2 : (⟨1, ![128]⟩ : Shape).ShapeCasts ⟨2, ![1, 128]⟩)
    (h3 : (⟨2, ![1, 128]⟩ : Shape).Broadcasts ⟨2, ![8192, 128]⟩) (p : Fin 8192) (k : Fin 128) :
    broadcastTo ⟨2, ![8192, 128]⟩ (shapeCast ⟨2, ![1, 128]⟩ (shapeCast ⟨1, ![128]⟩ v h1) h2) h3 (ix2 p k)
      = v (ix2 (0 : Fin 1) k) :=
  (broadcastTo_1b_ab_apply _ h3 p k).trans
    ((shapeCast_a_1a_apply _ h2 (0 : Fin 1) k).trans (shapeCast_1a_a_apply v h1 k))

/-- The embedding bias given a unit axis and repeated down the rows: at (p, k) the bias at k. -/
theorem vec_rows_apply (v : (⟨1, ![128]⟩ : Shape).Idx → α)
    (h2 : (⟨1, ![128]⟩ : Shape).ShapeCasts ⟨2, ![1, 128]⟩)
    (h3 : (⟨2, ![1, 128]⟩ : Shape).Broadcasts ⟨2, ![8192, 128]⟩) (p : Fin 8192) (k : Fin 128) :
    broadcastTo ⟨2, ![8192, 128]⟩ (shapeCast ⟨2, ![1, 128]⟩ v h2) h3 (ix2 p k) = v (ix1 k) :=
  (broadcastTo_1b_ab_apply _ h3 p k).trans (shapeCast_a_1a_apply v h2 (0 : Fin 1) k)

/-- Slab `l` of a [2, 128, 128] buffer as a rectangle: its index (0, j, k) is the buffer's index (l, j, k). -/
theorem slab_idx (l : Fin 2)
    (inb : ∀ a, (![l.val, 0, 0] : Fin 3 → Nat) a + (⟨3, ![1, 128, 128]⟩ : Shape).size a ≤ (⟨3, ![2, 128, 128]⟩ : Shape).size a)
    (j k : Fin 128) :
    (Rect.unit (s := ⟨3, ![2, 128, 128]⟩) ![l.val, 0, 0] (⟨3, ![1, 128, 128]⟩ : Shape).size inb).idx (ix3 (0 : Fin 1) j k)
      = ix3 l j k :=
  funext fun a => Fin.ext (by
    match a with
    | ⟨0, _⟩ => show l.val + 1 * 0 = l.val; omega
    | ⟨1, _⟩ => show 0 + 1 * j.val = j.val; omega
    | ⟨2, _⟩ => show 0 + 1 * k.val = k.val; omega)

/-- Row `l` of a [2, 128] buffer as a rectangle: its index (0, k) is the buffer's index (l, k). -/
theorem brow_idx (l : Fin 2)
    (inb : ∀ a, (![l.val, 0] : Fin 2 → Nat) a + (⟨2, ![1, 128]⟩ : Shape).size a ≤ (⟨2, ![2, 128]⟩ : Shape).size a)
    (k : Fin 128) :
    (Rect.unit (s := ⟨2, ![2, 128]⟩) ![l.val, 0] (⟨2, ![1, 128]⟩ : Shape).size inb).idx (ix2 (0 : Fin 1) k) = ix2 l k :=
  funext fun a => Fin.ext (by
    match a with
    | ⟨0, _⟩ => show l.val + 1 * 0 = l.val; omega
    | ⟨1, _⟩ => show 0 + 1 * k.val = k.val; omega)

/-- The sum over the node axis of a [16, 512, 128] array, at (a, k): the sum over n of entry (a, n, k). -/
theorem node_sum_apply (src : FVec Ideal ⟨3, ![16, 512, 128]⟩ .f32)
    (h : (⟨3, ![16, 512, 128]⟩ : Shape).Reduces [1] ⟨2, ![16, 128]⟩) (hφ : FKind.Formats .f32)
    (hacc : (0x00000000#32 : BitVec 32) = 0x00000000#32) (a : Fin 16) (k : Fin 128) :
    multiReduction .add [1] ⟨2, ![16, 128]⟩ src 0x00000000#32 h hφ hacc (ix2 a k) = ∑ n : Fin 512, src (ix3 a n k) := by
  refine (Ideal.multiReduction_add_single src 0x00000000#32 h hφ hacc (ix2 a k)).trans ?_
  refine Finset.sum_congr rfl fun n _ => congrArg src (funext fun b => Fin.ext ?_)
  match b with
  | ⟨0, _⟩ => rfl
  | ⟨1, _⟩ => rfl
  | ⟨2, _⟩ => rfl

end Cert.TreeCell.KerOps

end
-- ==== Proof.Spec.lean ====
/-
  The mathematics both programs compute, stated once over the extended reals.

  A node's feature row x (64 entries) is embedded as  e k = (sum over f of x f * E (f, k)) + eb k.  A gate's
  pre-activation of a hidden row h (128 entries) in layer l is
      lin W bW bU l h k = (sum over j of h j * W (l, j, k)) + bW (l, k) + bU (l, k),
  the two biases added in that order. A childless cell of layer l maps h to
      cell l h k = sigmoid (lin Wo ..) * tanh (sigmoid (lin Wi ..) * tanh (lin Wc ..)),
  a node's output is the second layer's cell of the first layer's cell of its embedding, and the result at (b, k)
  is the sum over the 512 nodes n of batch entry b of the node's output at k, divided by the float 512.
-/
import Idealize.ShloMosaic.PureOps.Ideal
import Idealize.ShloMosaic.Lib.ValueIdx

noncomputable section

namespace Cert.TreeCell

open Idealize.ShloMosaic Idealize.ShloMosaic.ValueIdx

/-- The arrays the computation reads besides the features. -/
structure Params where
  E : (⟨2, ![64, 128]⟩ : Shape).Idx → EReal
  eb : (⟨1, ![128]⟩ : Shape).Idx → EReal
  Wi : (⟨3, ![2, 128, 128]⟩ : Shape).Idx → EReal
  Wo : (⟨3, ![2, 128, 128]⟩ : Shape).Idx → EReal
  Wc : (⟨3, ![2, 128, 128]⟩ : Shape).Idx → EReal
  bWi : (⟨2, ![2, 128]⟩ : Shape).Idx → EReal
  bUi : (⟨2, ![2, 128]⟩ : Shape).Idx → EReal
  bWo : (⟨2, ![2, 128]⟩ : Shape).Idx → EReal
  bUo : (⟨2, ![2, 128]⟩ : Shape).Idx → EReal
  bWc : (⟨2, ![2, 128]⟩ : Shape).Idx → EReal
  bUc : (⟨2, ![2, 128]⟩ : Shape).Idx → EReal

/-- A feature row times the embedding matrix, plus the embedding bias. -/
def embed (E : (⟨2, ![64, 128]⟩ : Shape).Idx → EReal) (eb : (⟨1, ![128]⟩ : Shape).Idx → EReal)
    (x : Fin 64 → EReal) (k : Fin 128) : EReal :=
  (∑ f : Fin 64, x f * E (ix2 f k)) + eb (ix1 k)

/-- A hidden row times slab `l` of a gate's weights, plus the gate's two biases of that layer. -/
def lin (W : (⟨3, ![2, 128, 128]⟩ : Shape).Idx → EReal) (bW bU : (⟨2, ![2, 128]⟩ : Shape).Idx → EReal)
    (l : Fin 2) (h : Fin 128 → EReal) (k : Fin 128) : EReal :=
  (∑ j : Fin 128, h j * W (ix3 l j k)) + bW (ix2 l k) + bU (ix2 l k)

/-- One childless cell: output gate times tanh of (input gate times candidate). -/
def cell (P : Params) (l : Fin 2) (h : Fin 128 → EReal) (k : Fin 128) : EReal :=
  Ideal.logistic (lin P.Wo P.bWo P.bUo l h k)
    * Ideal.tanh (Ideal.logistic (lin P.Wi P.bWi P.bUi l h k) * Ideal.tanh (lin P.Wc P.bWc P.bUc l h k))

/-- A node's hidden row after both layers. -/
def node (P : Params) (x : Fin 64 → EReal) : Fin 128 → EReal :=
  cell P 1 (cell P 0 (embed P.E P.eb x))

/-- The mean over the nodes of a batch entry: the sum over the node axis divided by the float 512. -/
def pooled (P : Params) (X : (⟨3, ![256, 512, 64]⟩ : Shape).Idx → EReal) :
    (⟨2, ![256, 128]⟩ : Shape).Idx → EReal := fun i =>
  Ideal.div (∑ n : Fin 512, node P (fun f => X (ix3 (i 0) n f)) (i 1)) (Ideal.ofBits .f32 0x44000000#32)

/-- The float pattern of 1.0 denotes the real 1. -/
theorem ofBits_one_f32 : Ideal.ofBits .f32 0x3F800000#32 = 1 := by
  simp [Ideal.ofBits, Ideal.ieee, -EReal.coe_mul] <;> norm_num

/-- The sigmoid spelled out as 1 / (1 + exp (-x)) over the float pattern of 1.0 is the sigmoid. -/
theorem logistic_spelled (x : EReal) :
    Ideal.div (Ideal.ofBits .f32 0x3F800000#32) (Ideal.ofBits .f32 0x3F800000#32 + Ideal.exp (-x)) = Ideal.logistic x := by
  rw [ofBits_one_f32]; rfl

end Cert.TreeCell

end
-- ==== Proof.KerBody.lean ====
/-
  What the kernel's body stores for one batch tile, read at one element.

  The body loads the feature tile x0 [16, 512, 64], flattens it to 8192 rows, embeds each row, runs the two cell layers
  on the 8192 hidden rows (every matrix product into a zero accumulator, the format changes being the identity over
  the extended reals), gives the rows their [16, 512, 128] shape back, sums over the node axis and divides by the
  float 512. So at (a, k) it stores  (sum over n of node (x0 (a, n, .)) k) / 512,  the node function being the one
  of the specification with the weights as loaded.
-/
import proofs.«102343_j34626026341055_1_alg».proof.Proof.Gen.KernelIdeal.Frame
import proofs.«102343_j34626026341055_1_alg».proof.Proof.LibPlainDot
import proofs.«102343_j34626026341055_1_alg».proof.Proof.KerOps
import proofs.«102343_j34626026341055_1_alg».proof.Proof.Spec

noncomputable section

namespace Cert.KernelIdeal.Body

open Cert.KernelIdeal Cert.KernelIdeal.Gen Idealize.ShloMosaic Idealize.ShloMosaic.ValueIdx
open Cert.TreeCell Cert.TreeCell.KerOps

/-- The zero offsets of a whole [16, 128] store, as a constant function. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- A product of 8192 hidden rows with a 128 by 128 matrix into the zero accumulator, at (p, q). -/
theorem hid_dot_apply (lhs : FVec Ideal S8192x128 .bf16) (rhs : FVec Ideal S128x128 .bf16) (p : Fin 8192) (q : Fin 128) :
    matmul dot_S8192x128_S128x128_S8192x128_1_0_0_1_n_n none lhs rhs (constant S8192x128 .f32 0x00000000#32) (ix2 p q)
      = ∑ j : Fin 128, lhs (ix2 p j) * rhs (ix2 j q) :=
  Cert.Lib.PlainDot.matmul_zero_apply 8192 128 128 none lhs rhs p q

/-- The product of the 8192 feature rows with the 64 by 128 embedding matrix, at (p, q). -/
theorem emb_dot_apply (lhs : FVec Ideal S8192x64 .bf16) (rhs : FVec Ideal S64x128 .bf16) (p : Fin 8192) (q : Fin 128) :
    matmul dot_S8192x64_S64x128_S8192x128_1_0_0_1_n_n none lhs rhs (constant S8192x128 .f32 0x00000000#32) (ix2 p q)
      = ∑ f : Fin 64, lhs (ix2 p f) * rhs (ix2 f q) :=
  Cert.Lib.PlainDot.matmul_zero_apply 8192 64 128 none lhs rhs p q

/-- A gate's pre-activation as the body spells it: hidden rows times the loaded weight slab (its unit axis dropped),
    plus the loaded bias row repeated down the rows. At (p, k): the row's product with column k, plus the bias at k. -/
theorem lin1_apply (hb : FVec Ideal S8192x128 .bf16) (Wl : Vec Ideal S1x128x128 .f32) (bl : Vec Ideal S1x128 .f32)
    (p : Fin 8192) (k : Fin 128) :
    addf (matmul dot_S8192x128_S128x128_S8192x128_1_0_0_1_n_n none hb
            (truncf .bf16 (shapeCast S128x128 Wl shapeCasts_S1x128x128_S128x128) bitsLt_bf16_f32) (constant S8192x128 .f32 0x00000000#32))
         (broadcastTo S8192x128 (shapeCast S1x128 (shapeCast S128 bl shapeCasts_S1x128_S128) shapeCasts_S128_S1x128) broadcasts_S1x128_S8192x128)
         (ix2 p k)
      = (∑ j : Fin 128, hb (ix2 p j) * Wl (ix3 (0 : Fin 1) j k)) + bl (ix2 (0 : Fin 1) k) := by
  refine congrArg₂ (· + ·) ((hid_dot_apply _ _ p k).trans (Finset.sum_congr rfl fun j _ => congrArg (hb (ix2 p j) * ·) ?_)) ?_
  · exact shapeCast_1ab_ab_apply Wl shapeCasts_S1x128x128_S128x128 j k
  · exact bias_rows_apply bl shapeCasts_S1x128_S128 shapeCasts_S128_S1x128 broadcasts_S1x128_S8192x128 p k

/-- The second bias of a gate, repeated down the rows and added. -/
theorem lin2_apply (z : FVec Ideal S8192x128 .f32) (bl : Vec Ideal S1x128 .f32) (p : Fin 8192) (k : Fin 128) :
    addf z (broadcastTo S8192x128 (shapeCast S1x128 (shapeCast S128 bl shapeCasts_S1x128_S128) shapeCasts_S128_S1x128) broadcasts_S1x128_S8192x128)
         (ix2 p k)
      = z (ix2 p k) + bl (ix2 (0 : Fin 1) k) :=
  congrArg (z (ix2 p k) + ·) (bias_rows_apply bl shapeCasts_S1x128_S128 shapeCasts_S128_S1x128 broadcasts_S1x128_S8192x128 p k)

/-- The pointwise sigmoid and tanh of a vector, at an element. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The embedded hidden rows: row (a, n) of the flattened tile is the embedding of the tile's feature row (a, n, .). -/
theorem pay2_apply (v0 : Vec Ideal S16x512x64 .f32) (v3 : Vec Ideal S64x128 .f32) (v6 : Vec Ideal S128 .f32)
    (a : Fin 16) (n : Fin 512) (k : Fin 128) :
    k0_pay2 v0 v3 v6 (ix2 (row a n) k) = embed v3 v6 (fun f => v0 (ix3 a n f)) k := by
  unfold k0_pay2 embed
  refine congrArg₂ (· + ·) ((emb_dot_apply _ _ (row a n) k).trans (Finset.sum_congr rfl fun f _ => congrArg (· * v3 (ix2 f k)) ?_)) ?_
  · exact flatten_apply _ shapeCasts_S16x512x64_S8192x64 a n f
  · exact vec_rows_apply v6 shapeCasts_S128_S1x128 broadcasts_S1x128_S8192x128 (row a n) k

/-- The first layer's input gate. -/
theorem pay3_apply (v0 : Vec Ideal S16x512x64 .f32) (v3 : Vec Ideal S64x128 .f32) (v6 : Vec Ideal S128 .f32)
    (v11 : Vec Ideal S1x128x128 .f32) (v15 v20 : Vec Ideal S1x128 .f32) (p : Fin 8192) (k : Fin 128) :
    k0_pay3 v0 v3 v6 v11 v15 v20 (ix2 p k)
      = Ideal.logistic ((∑ j : Fin 128, k0_pay2 v0 v3 v6 (ix2 p j) * v11 (ix3 (0 : Fin 1) j k)) + v15 (ix2 (0 : Fin 1) k) + v20 (ix2 (0 : Fin 1) k)) := by
  unfold k0_pay3
  exact congrArg Ideal.logistic ((lin2_apply _ v20 p k).trans (congrArg (· + v20 (ix2 (0 : Fin 1) k)) (lin1_apply _ v11 v15 p k)))

/-- The first layer's output gate before its second bias. -/
theorem pay4_apply (v0 : Vec Ideal S16x512x64 .f32) (v3 : Vec Ideal S64x128 .f32) (v6 : Vec Ideal S128 .f32)
    (v26 : Vec Ideal S1x128x128 .f32) (v30 : Vec Ideal S1x128 .f32) (p : Fin 8192) (k : Fin 128) :
    k0_pay4 v0 v3 v6 v26 v30 (ix2 p k)
      = (∑ j : Fin 128, k0_pay2 v0 v3 v6 (ix2 p j) * v26 (ix3 (0 : Fin 1) j k)) + v30 (ix2 (0 : Fin 1) k) := by
  unfold k0_pay4
  exact lin1_apply _ v26 v30 p k

/-- The first layer's hidden rows, from the embedded rows v10, the input gate v25 and the partial output gate v34. -/
theorem pay5_apply (v10 : FVec Ideal S8192x128 .bf16) (v25 v34 : FVec Ideal S8192x128 .f32) (v35 : Vec Ideal S1x128 .f32)
    (v41 : Vec Ideal S1x128x128 .f32) (v45 v50 : Vec Ideal S1x128 .f32) (p : Fin 8192) (k : Fin 128) :
    k0_pay5 v10 v25 v34 v35 v41 v45 v50 (ix2 p k)
      = Ideal.logistic (v34 (ix2 p k) + v35 (ix2 (0 : Fin 1) k))
          * Ideal.tanh (v25 (ix2 p k)
              * Ideal.tanh ((∑ j : Fin 128, v10 (ix2 p j) * v41 (ix3 (0 : Fin 1) j k)) + v45 (ix2 (0 : Fin 1) k) + v50 (ix2 (0 : Fin 1) k))) := by
  unfold k0_pay5
  exact congrArg₂ (fun u w => Ideal.logistic u * Ideal.tanh (v25 (ix2 p k) * Ideal.tanh w))
    (lin2_apply v34 v35 p k)
    ((lin2_apply _ v50 p k).trans (congrArg (· + v50 (ix2 (0 : Fin 1) k)) (lin1_apply v10 v41 v45 p k)))

/-- The second layer's input gate. -/
theorem pay6_apply (v10 : FVec Ideal S8192x128 .bf16) (v25 v34 : FVec Ideal S8192x128 .f32) (v35 : Vec Ideal S1x128 .f32)
    (v41 : Vec Ideal S1x128x128 .f32) (v45 v50 : Vec Ideal S1x128 .f32) (v60 : Vec Ideal S1x128x128 .f32) (v64 v69 : Vec Ideal S1x128 .f32)
    (p : Fin 8192) (k : Fin 128) :
    k0_pay6 v10 v25 v34 v35 v41 v45 v50 v60 v64 v69 (ix2 p k)
      = Ideal.logistic ((∑ j : Fin 128, k0_pay5 v10 v25 v34 v35 v41 v45 v50 (ix2 p j) * v60 (ix3 (0 : Fin 1) j k))
          + v64 (ix2 (0 : Fin 1) k) + v69 (ix2 (0 : Fin 1) k)) := by
  unfold k0_pay6
  exact congrArg Ideal.logistic ((lin2_apply _ v69 p k).trans (congrArg (· + v69 (ix2 (0 : Fin 1) k)) (lin1_apply _ v60 v64 p k)))

/-- The second layer's output-gate weights with the unit axis dropped. -/
theorem pay7_apply (v75 : Vec Ideal S1x128x128 .f32) (j k : Fin 128) : k0_pay7 v75 (ix2 j k) = v75 (ix3 (0 : Fin 1) j k) := by
  unfold k0_pay7
  exact shapeCast_1ab_ab_apply v75 shapeCasts_S1x128x128_S128x128 j k

/-- The stored block: the second layer's hidden rows summed over the nodes of tile entry a and divided by 512. -/
theorem pay1_apply (v59 : FVec Ideal S8192x128 .bf16) (v74 : FVec Ideal S8192x128 .f32) (v76 : FVec Ideal S128x128 .f32)
    (v79 v84 : Vec Ideal S1x128 .f32) (v90 : Vec Ideal S1x128x128 .f32) (v94 v99 : Vec Ideal S1x128 .f32) (a : Fin 16) (k : Fin 128) :
    k0_pay1 v59 v74 v76 v79 v84 v90 v94 v99 (ix2 a k)
      = Ideal.div (∑ n : Fin 512,
          Ideal.logistic ((∑ j : Fin 128, v59 (ix2 (row a n) j) * v76 (ix2 j k)) + v79 (ix2 (0 : Fin 1) k) + v84 (ix2 (0 : Fin 1) k))
            * Ideal.tanh (v74 (ix2 (row a n) k)
                * Ideal.tanh ((∑ j : Fin 128, v59 (ix2 (row a n) j) * v90 (ix3 (0 : Fin 1) j k)) + v94 (ix2 (0 : Fin 1) k) + v99 (ix2 (0 : Fin 1) k))))
          (Ideal.ofBits .f32 0x44000000#32) := by
  unfold k0_pay1
  refine congrArg (Ideal.div · (Ideal.ofBits .f32 0x44000000#32)) ?_
  refine (node_sum_apply _ reduces_S16x512x128_S16x128 (.inl rfl) rfl a k).trans (Finset.sum_congr rfl fun n _ => ?_)
  refine (unflatten_apply _ shapeCasts_S8192x128_S16x512x128 a n k).trans ?_
  refine congrArg₂ (fun u w => Ideal.logistic u * Ideal.tanh (v74 (ix2 (row a n) k) * Ideal.tanh w)) ?_ ?_
  · refine (lin2_apply _ v84 (row a n) k).trans (congrArg (· + v84 (ix2 (0 : Fin 1) k)) ?_)
    refine congrArg₂ (· + ·) ((hid_dot_apply _ _ (row a n) k).trans rfl) ?_
    exact bias_rows_apply v79 shapeCasts_S1x128_S128 shapeCasts_S128_S1x128 broadcasts_S1x128_S8192x128 (row a n) k
  · exact (lin2_apply _ v99 (row a n) k).trans (congrArg (· + v99 (ix2 (0 : Fin 1) k)) (lin1_apply v59 v90 v94 (row a n) k))

/-- Where the loads of a layer's weight slab and bias row read the whole weight arrays. -/
theorem idx_slab0 (j k : Fin 128) : r0_3.idx (ix3 (0 : Fin 1) j k) = ix3 (0 : Fin 2) j k := slab_idx 0 _ j k
theorem idx_slab1 (j k : Fin 128) : r0_5.idx (ix3 (0 : Fin 1) j k) = ix3 (1 : Fin 2) j k := slab_idx 1 _ j k
theorem idx_brow0 (k : Fin 128) : r0_4.idx (ix2 (0 : Fin 1) k) = ix2 (0 : Fin 2) k := brow_idx 0 _ k
theorem idx_brow1 (k : Fin 128) : r0_6.idx (ix2 (0 : Fin 1) k) = ix2 (1 : Fin 2) k := brow_idx 1 _ k

/-- WHAT THE BODY LEAVES IN THE OUTPUT BLOCK, at (a, k): the mean over the 512 nodes of tile entry a of the node
    function of the specification, the weights being the whole weight arrays the body's resident windows hold. -/
theorem out_apply (x0 : Vec Ideal S16x512x64 .f32) (x1 : Vec Ideal S64x128 .f32) (x2 : Vec Ideal S128 .f32)
    (x3 x4 x5 : Vec Ideal S2x128x128 .f32) (x6 x7 x8 x9 x10 x11 : Vec Ideal S2x128 .f32) (a : Fin 16) (k : Fin 128) :
    out0_12 x0 x1 x2 x3 x4 x5 x6 x7 x8 x9 x10 x11 (ix2 a k)
      = Ideal.div (∑ n : Fin 512, node ⟨x1, x2, x3, x4, x5, x6, x7, x8, x9, x10, x11⟩ (fun f => x0 (ix3 a n f)) k)
          (Ideal.ofBits .f32 0x44000000#32) := by
  unfold out0_12
  rw [View.canon_unit_zero hz2]
  simp only [View.ld_unit_zero (S := S16x512x64) hz3, View.ld_unit_zero (S := S64x128) hz2, View.ld_unit_zero (S := S128) hz1]
  rw [pay1_apply]
  refine congrArg (Ideal.div · (Ideal.ofBits .f32 0x44000000#32)) (Finset.sum_congr rfl fun n _ => ?_)
  simp only [pay5_apply, pay6_apply, pay7_apply, pay3_apply, pay4_apply, pay2_apply, View.ld, idx_slab0, idx_slab1, idx_brow0, idx_brow1]
  rfl

end Cert.KernelIdeal.Body

end
-- ==== Proof.KerValue.lean ====
/-
  From the blocks to the array: what the kernel's result array holds after the run.

  The grid has 16 points; point t stages rows 16 t .. 16 t + 15 of the feature array and writes back rows
  16 t .. 16 t + 15 of the result, while every weight array is staged whole at every point. So what point t writes back is
  block t of the specification's function of the argument arrays, the 16 blocks cover the [256, 128] result, and the
  result array ends holding that function.
-/
import proofs.«102343_j34626026341055_1_alg».proof.Proof.Gen.KernelIdeal.Value
import proofs.«102343_j34626026341055_1_alg».proof.Proof.KerBody

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.ValueIdx Cert.TreeCell Cert.KernelIdeal.Body
open Idealize.ShloMosaic.Pipeline (Dat)

variable (m : (ℓ : Loc nD τ sig) → Buf (Elt Ideal) ℓ) (ρ : Dev nD → PrngReg)

/-- The weight arrays as the region finds them. -/
abbrev weights (c : Dev nD) : Params :=
  ⟨V m c main_arg1, V m c main_arg2, V m c main_arg3, V m c main_arg4, V m c main_arg5, V m c main_arg6,
   V m c main_arg7, V m c main_arg8, V m c main_arg9, V m c main_arg10, V m c main_arg11⟩

/-! ## The index maps over the 16 grid points -/

/-- The feature window moves with the result window along the batch axis and sits at block 0 on its other axes; the
    result window sits at block 0 on the hidden axis and its block row is at most 15. -/
theorem idx_moving : ∀ t : Fin cfg0.N,
    win0_0.index t (0 : Fin 3) = win0_12.index t (0 : Fin 2) ∧ win0_0.index t (1 : Fin 3) = 0 ∧ win0_0.index t (2 : Fin 3) = 0
    ∧ win0_12.index t (1 : Fin 2) = 0 ∧ win0_12.index t (0 : Fin 2) ≤ 15 :=
  (by decide +kernel : ∀ t : Fin grid0.N, _)

/-- Every block row of the result is some point's. -/
theorem idx_onto : ∀ q0 : Fin 16, ∃ t : Fin cfg0.N, win0_12.index t = ![q0.val, 0] :=
  (by decide +kernel : ∀ q0 : Fin 16, ∃ t : Fin grid0.N, win0_12.index t = ![q0.val, 0])

/-- Every weight window sits at block 0 on every axis, at every point. -/
theorem idx_w1 : ∀ (t : Fin cfg0.N) (a : Fin 2), win0_1.index t a = 0 := (by decide +kernel : ∀ (t : Fin grid0.N) (a : Fin 2), win0_1.index t a = 0)
theorem idx_w2 : ∀ (t : Fin cfg0.N) (a : Fin 1), win0_2.index t a = 0 := (by decide +kernel : ∀ (t : Fin grid0.N) (a : Fin 1), win0_2.index t a = 0)
theorem idx_w3 : ∀ (t : Fin cfg0.N) (a : Fin 3), win0_3.index t a = 0 := (by decide +kernel : ∀ (t : Fin grid0.N) (a : Fin 3), win0_3.index t a = 0)
theorem idx_w4 : ∀ (t : Fin cfg0.N) (a : Fin 3), win0_4.index t a = 0 := (by decide +kernel : ∀ (t : Fin grid0.N) (a : Fin 3), win0_4.index t a = 0)
theorem idx_w5 : ∀ (t : Fin cfg0.N) (a : Fin 3), win0_5.index t a = 0 := (by decide +kernel : ∀ (t : Fin grid0.N) (a : Fin 3), win0_5.index t a = 0)
theorem idx_w6 : ∀ (t : Fin cfg0.N) (a : Fin 2), win0_6.index t a = 0 := (by decide +kernel : ∀ (t : Fin grid0.N) (a : Fin 2), win0_6.index t a = 0)
theorem idx_w7 : ∀ (t : Fin cfg0.N) (a : Fin 2), win0_7.index t a = 0 := (by decide +kernel : ∀ (t : Fin grid0.N) (a : Fin 2), win0_7.index t a = 0)
theorem idx_w8 : ∀ (t : Fin cfg0.N) (a : Fin 2), win0_8.index t a = 0 := (by decide +kernel : ∀ (t : Fin grid0.N) (a : Fin 2), win0_8.index t a = 0)
theorem idx_w9 : ∀ (t : Fin cfg0.N) (a : Fin 2), win0_9.index t a = 0 := (by decide +kernel : ∀ (t : Fin grid0.N) (a : Fin 2), win0_9.index t a = 0)
theorem idx_w10 : ∀ (t : Fin cfg0.N) (a : Fin 2), win0_10.index t a = 0 := (by decide +kernel : ∀ (t : Fin grid0.N) (a : Fin 2), win0_10.index t a = 0)
theorem idx_w11 : ∀ (t : Fin cfg0.N) (a : Fin 2), win0_11.index t a = 0 := (by decide +kernel : ∀ (t : Fin grid0.N) (a : Fin 2), win0_11.index t a = 0)

/-! ## A weight window's block is the whole weight array

A block's coordinate on an axis is the block index times the block's extent plus the coordinate inside the block; at
block index 0 it is the coordinate inside the block. -/

theorem iblk1_eq (c : Dev nD) (t : Fin cfg0.N) : iblk m c 1 t = V m c main_arg1 := by
  funext j
  show V m c main_arg1 (((cfg0.win 1).blk t).view.emb j) = V m c main_arg1 j
  refine congrArg (V m c main_arg1) (funext fun a => Fin.ext ?_)
  match a with
  | ⟨0, _⟩ => show win0_1.index t (0 : Fin 2) * 64 + 1 * (j 0).val = (j 0).val; rw [idx_w1 t 0]; omega
  | ⟨1, _⟩ => show win0_1.index t (1 : Fin 2) * 128 + 1 * (j 1).val = (j 1).val; rw [idx_w1 t 1]; omega

theorem iblk2_eq (c : Dev nD) (t : Fin cfg0.N) : iblk m c 2 t = V m c main_arg2 := by
  funext j
  show V m c main_arg2 (((cfg0.win 2).blk t).view.emb j) = V m c main_arg2 j
  refine congrArg (V m c main_arg2) (funext fun a => Fin.ext ?_)
  match a with
  | ⟨0, _⟩ => show win0_2.index t (0 : Fin 1) * 128 + 1 * (j 0).val = (j 0).val; rw [idx_w2 t 0]; omega

theorem iblk3_eq (c : Dev nD) (t : Fin cfg0.N) : iblk m c 3 t = V m c main_arg3 := by
  funext j
  show V m c main_arg3 (((cfg0.win 3).blk t).view.emb j) = V m c main_arg3 j
  refine congrArg (V m c main_arg3) (funext fun a => Fin.ext ?_)
  match a with
  | ⟨0, _⟩ => show win0_3.index t (0 : Fin 3) * 2 + 1 * (j 0).val = (j 0).val; rw [idx_w3 t 0]; omega
  | ⟨1, _⟩ => show win0_3.index t (1 : Fin 3) * 128 + 1 * (j 1).val = (j 1).val; rw [idx_w3 t 1]; omega
  | ⟨2, _⟩ => show win0_3.index t (2 : Fin 3) * 128 + 1 * (j 2).val = (j 2).val; rw [idx_w3 t 2]; omega

theorem iblk4_eq (c : Dev nD) (t : Fin cfg0.N) : iblk m c 4 t = V m c main_arg4 := by
  funext j
  show V m c main_arg4 (((cfg0.win 4).blk t).view.emb j) = V m c main_arg4 j
  refine congrArg (V m c main_arg4) (funext fun a => Fin.ext ?_)
  match a with
  | ⟨0, _⟩ => show win0_4.index t (0 : Fin 3) * 2 + 1 * (j 0).val = (j 0).val; rw [idx_w4 t 0]; omega
  | ⟨1, _⟩ => show win0_4.index t (1 : Fin 3) * 128 + 1 * (j 1).val = (j 1).val; rw [idx_w4 t 1]; omega
  | ⟨2, _⟩ => show win0_4.index t (2 : Fin 3) * 128 + 1 * (j 2).val = (j 2).val; rw [idx_w4 t 2]; omega

theorem iblk5_eq (c : Dev nD) (t : Fin cfg0.N) : iblk m c 5 t = V m c main_arg5 := by
  funext j
  show V m c main_arg5 (((cfg0.win 5).blk t).view.emb j) = V m c main_arg5 j
  refine congrArg (V m c main_arg5) (funext fun a => Fin.ext ?_)
  match a with
  | ⟨0, _⟩ => show win0_5.index t (0 : Fin 3) * 2 + 1 * (j 0).val = (j 0).val; rw [idx_w5 t 0]; omega
  | ⟨1, _⟩ => show win0_5.index t (1 : Fin 3) * 128 + 1 * (j 1).val = (j 1).val; rw [idx_w5 t 1]; omega
  | ⟨2, _⟩ => show win0_5.index t (2 : Fin 3) * 128 + 1 * (j 2).val = (j 2).val; rw [idx_w5 t 2]; omega

theorem iblk6_eq (c : Dev nD) (t : Fin cfg0.N) : iblk m c 6 t = V m c main_arg6 := by
  funext j
  show V m c main_arg6 (((cfg0.win 6).blk t).view.emb j) = V m c main_arg6 j
  refine congrArg (V m c main_arg6) (funext fun a => Fin.ext ?_)
  match a with
  | ⟨0, _⟩ => show win0_6.index t (0 : Fin 2) * 2 + 1 * (j 0).val = (j 0).val; rw [idx_w6 t 0]; omega
  | ⟨1, _⟩ => show win0_6.index t (1 : Fin 2) * 128 + 1 * (j 1).val = (j 1).val; rw [idx_w6 t 1]; omega

theorem iblk7_eq (c : Dev nD) (t : Fin cfg0.N) : iblk m c 7 t = V m c main_arg7 := by
  funext j
  show V m c main_arg7 (((cfg0.win 7).blk t).view.emb j) = V m c main_arg7 j
  refine congrArg (V m c main_arg7) (funext fun a => Fin.ext ?_)
  match a with
  | ⟨0, _⟩ => show win0_7.index t (0 : Fin 2) * 2 + 1 * (j 0).val = (j 0).val; rw [idx_w7 t 0]; omega
  | ⟨1, _⟩ => show win0_7.index t (1 : Fin 2) * 128 + 1 * (j 1).val = (j 1).val; rw [idx_w7 t 1]; omega

theorem iblk8_eq (c : Dev nD) (t : Fin cfg0.N) : iblk m c 8 t = V m c main_arg8 := by
  funext j
  show V m c main_arg8 (((cfg0.win 8).blk t).view.emb j) = V m c main_arg8 j
  refine congrArg (V m c main_arg8) (funext fun a => Fin.ext ?_)
  match a with
  | ⟨0, _⟩ => show win0_8.index t (0 : Fin 2) * 2 + 1 * (j 0).val = (j 0).val; rw [idx_w8 t 0]; omega
  | ⟨1, _⟩ => show win0_8.index t (1 : Fin 2) * 128 + 1 * (j 1).val = (j 1).val; rw [idx_w8 t 1]; omega

theorem iblk9_eq (c : Dev nD) (t : Fin cfg0.N) : iblk m c 9 t = V m c main_arg9 := by
  funext j
  show V m c main_arg9 (((cfg0.win 9).blk t).view.emb j) = V m c main_arg9 j
  refine congrArg (V m c main_arg9) (funext fun a => Fin.ext ?_)
  match a with
  | ⟨0, _⟩ => show win0_9.index t (0 : Fin 2) * 2 + 1 * (j 0).val = (j 0).val; rw [idx_w9 t 0]; omega
  | ⟨1, _⟩ => show win0_9.index t (1 : Fin 2) * 128 + 1 * (j 1).val = (j 1).val; rw [idx_w9 t 1]; omega

theorem iblk10_eq (c : Dev nD) (t : Fin cfg0.N) : iblk m c 10 t = V m c main_arg10 := by
  funext j
  show V m c main_arg10 (((cfg0.win 10).blk t).view.emb j) = V m c main_arg10 j
  refine congrArg (V m c main_arg10) (funext fun a => Fin.ext ?_)
  match a with
  | ⟨0, _⟩ => show win0_10.index t (0 : Fin 2) * 2 + 1 * (j 0).val = (j 0).val; rw [idx_w10 t 0]; omega
  | ⟨1, _⟩ => show win0_10.index t (1 : Fin 2) * 128 + 1 * (j 1).val = (j 1).val; rw [idx_w10 t 1]; omega

theorem iblk11_eq (c : Dev nD) (t : Fin cfg0.N) : iblk m c 11 t = V m c main_arg11 := by
  funext j
  show V m c main_arg11 (((cfg0.win 11).blk t).view.emb j) = V m c main_arg11 j
  refine congrArg (V m c main_arg11) (funext fun a => Fin.ext ?_)
  match a with
  | ⟨0, _⟩ => show win0_11.index t (0 : Fin 2) * 2 + 1 * (j 0).val = (j 0).val; rw [idx_w11 t 0]; omega
  | ⟨1, _⟩ => show win0_11.index t (1 : Fin 2) * 128 + 1 * (j 1).val = (j 1).val; rw [idx_w11 t 1]; omega

/-! ## What a point writes back -/

/-- The specification's mean over the nodes, read at a result index whose hidden coordinate is k and whose batch
    coordinate names the feature rows the tile x0 holds at its entry a. -/
theorem pooled_of_tile (W : Params) (X : Vec Ideal S256x512x64 .f32) (x0 : Vec Ideal S16x512x64 .f32) (i : S256x128.Idx)
    (a : Fin 16) (k : Fin 128) (hk : (i 1).val = k.val) (hx : ∀ n f, x0 (ix3 a n f) = X (ix3 (i 0) n f)) :
    Ideal.div (∑ n : Fin 512, node W (fun f => x0 (ix3 a n f)) k) (Ideal.ofBits .f32 0x44000000#32) = pooled W X i := by
  unfold pooled
  have e : i 1 = k := Fin.ext hk
  rw [e]
  simp only [hx]

/-- WHAT POINT t WRITES BACK is block t of the specification's function of the argument arrays. -/
theorem flushed_eq (c : Dev nD) (t : Fin cfg0.N) :
    (dats m 0 c).flushed 12 t
      = ((cfg0.win 12).blk t).view.read (Elt Ideal) (pooled (weights m c) (V m c main_arg0)) := by
  rw [Value.flushed12, iblk1_eq, iblk2_eq, iblk3_eq, iblk4_eq, iblk5_eq, iblk6_eq, iblk7_eq, iblk8_eq, iblk9_eq, iblk10_eq, iblk11_eq]
  obtain ⟨e0, e1, e2, e3, e4⟩ := idx_moving t
  funext y
  obtain ⟨a, k, rfl⟩ : ∃ (a : Fin 16) (k : Fin 128), y = ix2 a k := ⟨y 0, y 1, eq_ix2 y⟩
  show out0_12 (iblk m c 0 t) (V m c main_arg1) (V m c main_arg2) (V m c main_arg3) (V m c main_arg4) (V m c main_arg5)
        (V m c main_arg6) (V m c main_arg7) (V m c main_arg8) (V m c main_arg9) (V m c main_arg10) (V m c main_arg11) (ix2 a k)
      = pooled (weights m c) (V m c main_arg0) (((cfg0.win 12).blk t).view.emb (ix2 a k))
  refine (out_apply (iblk m c 0 t) (V m c main_arg1) (V m c main_arg2) (V m c main_arg3) (V m c main_arg4) (V m c main_arg5)
        (V m c main_arg6) (V m c main_arg7) (V m c main_arg8) (V m c main_arg9) (V m c main_arg10) (V m c main_arg11) a k).trans ?_
  refine pooled_of_tile (weights m c) (V m c main_arg0) (iblk m c 0 t) (((cfg0.win 12).blk t).view.emb (ix2 a k)) a k ?_ ?_
  · show win0_12.index t (1 : Fin 2) * 128 + 1 * k.val = k.val
    omega
  · intro n f
    show V m c main_arg0 (((cfg0.win 0).blk t).view.emb (ix3 a n f)) = _
    refine congrArg (V m c main_arg0) (funext fun b => Fin.ext ?_)
    match b with
    | ⟨0, _⟩ => show win0_0.index t (0 : Fin 3) * 16 + 1 * a.val = win0_12.index t (0 : Fin 2) * 16 + 1 * a.val; omega
    | ⟨1, _⟩ => show win0_0.index t (1 : Fin 3) * 512 + 1 * n.val = n.val; omega
    | ⟨2, _⟩ => show win0_0.index t (2 : Fin 3) * 64 + 1 * f.val = f.val; omega

/-! ## The blocks cover the result -/

/-- An index of the result is in point t's block iff each coordinate is in the block's range on its axis. -/
theorem mem_blk (t : Fin cfg0.N) (i : S256x128.Idx) :
    i ∈ ((cfg0.win 12).blk t).view.set ↔ ∀ a : Fin 2, win0_12.index t a * S16x128.size a ≤ (i a).val ∧ (i a).val < win0_12.index t a * S16x128.size a + S16x128.size a := by
  show i ∈ ((View.whole main_v0).slice (win0_12.rect t)).set ↔ _
  rw [View.set_slice_whole, Rect.mem_set_unit]
  exact Iff.rfl

/-- Row r of the result is in the block of the point whose block row is r / 16. -/
theorem cover (i : S256x128.Idx) : ∃ t : Fin cfg0.N, (cfg0.win 12).flush t = true ∧ i ∈ ((cfg0.win 12).blk t).view.set := by
  have hi0 : (i 0).val < 256 := (i 0).isLt
  have hi1 : (i 1).val < 128 := (i 1).isLt
  obtain ⟨t, ht⟩ := idx_onto ⟨(i 0).val / 16, by omega⟩
  have q0 : win0_12.index t (0 : Fin 2) = (i 0).val / 16 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 16 ≤ (i 0).val ∧ (i 0).val < win0_12.index t (0 : Fin 2) * 16 + 16; omega
  | ⟨1, _⟩ => show win0_12.index t (1 : Fin 2) * 128 ≤ (i 1).val ∧ (i 1).val < win0_12.index t (1 : Fin 2) * 128 + 128; omega

/-- THE RESULT ARRAY after the run: the specification's function of the argument arrays. -/
theorem final (c : Dev nD) : (dats m 0 c).arrAt 12 cfg0.N = pooled (weights m c) (V m c main_arg0) :=
  (dats m 0 c).arrAt_eq_of_cover 12 (pooled (weights m c) (V m c main_arg0)) (fun t _ => flushed_eq m c t) cover

/-- The kernel's run: every weakly fair execution ends with the result array at the specification's function of the
    argument arrays, the arguments unchanged. -/
theorem run : θ_run defs (onTc (τ := τ) (main (F := Ideal))) ⟨m, fun _ => 0, ρ⟩ fun r => ∀ c : Dev nD,
      r.2.mem ((c : Thread nD τ).loc main_v0) = pooled (weights m c) (V m c main_arg0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.BlockValue

end
-- ==== Proof.RefOps.lean ====
/-
  The reference's layout operations read at one element, over the literal shapes of this program.

  The reference keeps the [256, 512, 128] shape of the hidden rows throughout. A bias of layer l is cut out of its
  [2, 128] array as a [1, 128] slice, flattened, given two unit axes and repeated over batch entries and nodes; a weight
  slab of layer l is cut out of its [2, 128, 128] array and its unit axis dropped; the constant 1.0 of the spelled-out
  sigmoid is a scalar repeated everywhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.TreeCell.RefOps

open Idealize.ShloMosaic Idealize.ShloMosaic.ValueIdx

variable {α : Type}

/-- A [128] vector given two leading unit axes and repeated over [256, 512, 128]: at (b, n, k) the vector at k. -/
theorem vec3_apply (v : (⟨1, ![128]⟩ : Shape).Idx → α)
    (h1 : (⟨1, ![128]⟩ : Shape).BroadcastsInDim ⟨3, ![1, 1, 128]⟩ (![2] : Fin 1 → Fin 3))
    (h2 : (⟨3, ![1, 1, 128]⟩ : Shape).BroadcastsInDim ⟨3, ![256, 512, 128]⟩ (![0, 1, 2] : Fin 3 → Fin 3))
    (b : Fin 256) (n : Fin 512) (k : Fin 128) :
    broadcastInDim ⟨3, ![256, 512, 128]⟩ ![0, 1, 2] h2 (broadcastInDim ⟨3, ![1, 1, 128]⟩ ![2] h1 v) (ix3 b n k) = v (ix1 k) :=
  (broadcastInDim_apply _ h2 _ (ix3 b n k) (ix3 (0 : Fin 1) (0 : Fin 1) k) (fun a => match a with
      | ⟨0, _⟩ => by show 0 = if (1 : Nat) = 1 then 0 else b.val; rw [if_pos rfl]
      | ⟨1, _⟩ => by show 0 = if (1 : Nat) = 1 then 0 else n.val; rw [if_pos rfl]
      | ⟨2, _⟩ => by show k.val = if (128 : Nat) = 1 then 0 else k.val; rw [if_neg (by decide)])).trans
    (broadcastInDim_apply _ h1 v (ix3 (0 : Fin 1) (0 : Fin 1) k) (ix1 k) (fun a => match a with
      | ⟨0, _⟩ => by show k.val = if (128 : Nat) = 1 then 0 else k.val; rw [if_neg (by decide)]))

/-- Row `l` of a [2, 128] array, cut out and flattened: at k the array at (l, k). -/
theorem brow_apply (x : (⟨2, ![2, 128]⟩ : Shape).Idx → α) (l : Fin 2)
    (hs : (⟨2, ![2, 128]⟩ : Shape).Slices ![l.val, 0] ⟨2, ![1, 128]⟩)
    (hc : (⟨2, ![1, 128]⟩ : Shape).ShapeCasts ⟨1, ![128]⟩) (k : Fin 128) :
    shapeCast ⟨1, ![128]⟩ (extractStridedSlice ⟨2, ![1, 128]⟩ ![l.val, 0] x hs) hc (ix1 k) = x (ix2 l k) :=
  (shapeCast_1a_a_apply _ hc k).trans
    (extractStridedSlice_apply _ x hs (ix2 (0 : Fin 1) k) (ix2 l k) (fun a => match a with
      | ⟨0, _⟩ => by show l.val = l.val + 0; omega
      | ⟨1, _⟩ => by show k.val = 0 + k.val; omega))

/-- A bias of layer `l` repeated over batch entries and nodes: at (b, n, k) the bias array at (l, k). -/
theorem bias3_apply (x : (⟨2, ![2, 128]⟩ : Shape).Idx → α) (l : Fin 2)
    (hs : (⟨2, ![2, 128]⟩ : Shape).Slices ![l.val, 0] ⟨2, ![1, 128]⟩)
    (hc : (⟨2, ![1, 128]⟩ : Shape).ShapeCasts ⟨1, ![128]⟩)
    (h1 : (⟨1, ![128]⟩ : Shape).BroadcastsInDim ⟨3, ![1, 1, 128]⟩ (![2] : Fin 1 → Fin 3))
    (h2 : (⟨3, ![1, 1, 128]⟩ : Shape).BroadcastsInDim ⟨3, ![256, 512, 128]⟩ (![0, 1, 2] : Fin 3 → Fin 3))
    (b : Fin 256) (n : Fin 512) (k : Fin 128) :
    broadcastInDim ⟨3, ![256, 512, 128]⟩ ![0, 1, 2] h2 (broadcastInDim ⟨3, ![1, 1, 128]⟩ ![2] h1
        (shapeCast ⟨1, ![128]⟩ (extractStridedSlice ⟨2, ![1, 128]⟩ ![l.val, 0] x hs) hc)) (ix3 b n k) = x (ix2 l k) :=
  (vec3_apply _ h1 h2 b n k).trans (brow_apply x l hs hc k)

/-- Slab `l` of a [2, 128, 128] array, cut out with its unit axis dropped: at (j, k) the array at (l, j, k). -/
theorem slab_apply (x : (⟨3, ![2, 128, 128]⟩ : Shape).Idx → α) (l : Fin 2)
    (hs : (⟨3, ![2, 128, 128]⟩ : Shape).Slices ![l.val, 0, 0] ⟨3, ![1, 128, 128]⟩)
    (hc : (⟨3, ![1, 128, 128]⟩ : Shape).ShapeCasts ⟨2, ![128, 128]⟩) (j k : Fin 128) :
    shapeCast ⟨2, ![128, 128]⟩ (extractStridedSlice ⟨3, ![1, 128, 128]⟩ ![l.val, 0, 0] x hs) hc (ix2 j k) = x (ix3 l j k) :=
  (shapeCast_1ab_ab_apply _ hc j k).trans
    (extractStridedSlice_apply _ x hs (ix3 (0 : Fin 1) j k) (ix3 l j k) (fun a => match a with
      | ⟨0, _⟩ => by show l.val = l.val + 0; omega
      | ⟨1, _⟩ => by show j.val = 0 + j.val; omega
      | ⟨2, _⟩ => by show k.val = 0 + k.val; omega))

end Cert.TreeCell.RefOps

end
-- ==== Proof.RefValue.lean ====
/-
  What the reference program computes, read at one element.

  The reference embeds every node's feature row, runs the two cell layers over the [256, 512, 128] array of hidden rows
  (the sigmoid spelled out as 1 / (1 + exp (-z)) over the float pattern of 1.0), sums over the node axis from the
  initial value 0 and divides by the float 512: at (b, k) the specification's mean of the node function over the
  nodes of batch entry b.
-/
import proofs.«102343_j34626026341055_1_alg».proof.Proof.Gen.ReferenceIdeal.Read
import proofs.«102343_j34626026341055_1_alg».proof.Proof.RefOps
import proofs.«102343_j34626026341055_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.TreeCell Cert.TreeCell.RefOps

/-- The product of the hidden rows with a 128 by 128 matrix, batch entry and node kept: at (b, n, k) the sum over j of
    lhs (b, n, j) * rhs (j, k). -/
theorem hid_dot3_apply (lhs : FVec Ideal S256x512x128 .f32) (rhs : FVec Ideal S128x128 .f32) (b : Fin 256) (n : Fin 512) (k : Fin 128) :
    Host.dotGeneral dot_S256x512x128_S128x128_S256x512x128_2_0_01_1_n_n none lhs rhs (ix3 b n k) = ∑ j : Fin 128, lhs (ix3 b n j) * rhs (ix2 j k) := by
  simp only [Host.dotGeneral]
  rw [Ideal.dotGeneral_apply, ← Equiv.sum_comp (contrEquiv1 dot_S256x512x128_S128x128_S256x512x128_2_0_01_1_n_n 128 rfl rfl).symm]
  refine Finset.sum_congr rfl fun j _ => ?_
  have hk := contrEquiv1_symm_val dot_S256x512x128_S128x128_S256x512x128_2_0_01_1_n_n 128 rfl rfl j
  have el : dot_S256x512x128_S128x128_S256x512x128_2_0_01_1_n_n.lhsIdx (ix3 b n k) ((contrEquiv1 dot_S256x512x128_S128x128_S256x512x128_2_0_01_1_n_n 128 rfl rfl).symm j) = ix3 b n j := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S256x512x128_S128x128_S256x512x128_2_0_01_1_n_n.rhsIdx (ix3 b n k) ((contrEquiv1 dot_S256x512x128_S128x128_S256x512x128_2_0_01_1_n_n 128 rfl rfl).symm j) = ix2 j k := funext fun a => Fin.ext (by
    match a with
    | ⟨0, _⟩ => exact (rhs_main_v6_0 _ _).trans hk
    | ⟨1, _⟩ => exact rhs_main_v6_1 _ _)
  rw [el, er]

/-- A gate's pre-activation as the reference spells it, for layer `l`: the hidden rows times slab l of the weights,
    plus the two biases of layer l, in that order. -/
theorem lin_apply (H : FVec Ideal S256x512x128 .f32) (W : FVec Ideal S2x128x128 .f32) (bW bU : FVec Ideal S2x128 .f32) (l : Fin 2)
    (hsW : S2x128x128.Slices ![l.val, 0, 0] S1x128x128) (hsb : S2x128.Slices ![l.val, 0] S1x128)
    (b : Fin 256) (n : Fin 512) (k : Fin 128) :
    addf (addf (Host.dotGeneral dot_S256x512x128_S128x128_S256x512x128_2_0_01_1_n_n none H
                  (shapeCast S128x128 (extractStridedSlice S1x128x128 ![l.val, 0, 0] W hsW) shapeCasts_S1x128x128_S128x128))
               (broadcastInDim S256x512x128 ![0, 1, 2] bcast_S1x1x128_S256x512x128_0_1_2 (broadcastInDim S1x1x128 ![2] bcast_S128_S1x1x128_2
                  (shapeCast S128 (extractStridedSlice S1x128 ![l.val, 0] bW hsb) shapeCasts_S1x128_S128))))
         (broadcastInDim S256x512x128 ![0, 1, 2] bcast_S1x1x128_S256x512x128_0_1_2 (broadcastInDim S1x1x128 ![2] bcast_S128_S1x1x128_2
            (shapeCast S128 (extractStridedSlice S1x128 ![l.val, 0] bU hsb) shapeCasts_S1x128_S128)))
         (ix3 b n k)
      = lin W bW bU l (fun j => H (ix3 b n j)) k := by
  unfold lin
  exact congrArg₂ (· + ·)
    (congrArg₂ (· + ·)
      ((hid_dot3_apply _ _ b n k).trans (Finset.sum_congr rfl fun j _ =>
        congrArg (H (ix3 b n j) * ·) (slab_apply W l hsW shapeCasts_S1x128x128_S128x128 j k)))
      (bias3_apply bW l hsb shapeCasts_S1x128_S128 bcast_S128_S1x1x128_2 bcast_S1x1x128_S256x512x128_0_1_2 b n k))
    (bias3_apply bU l hsb shapeCasts_S1x128_S128 bcast_S128_S1x1x128_2 bcast_S1x1x128_S256x512x128_0_1_2 b n k)

/-- The sigmoid as the reference spells it. -/
theorem sigmoid_apply (z : FVec Ideal S256x512x128 .f32) (i : S256x512x128.Idx) :
    Host.divf (F := Ideal) (broadcastInDim S256x512x128 ![] bcast_S_S256x512x128 (constant (F := Ideal) S_ .f32 0x3F800000#32))
        (addf (broadcastInDim S256x512x128 ![] bcast_S_S256x512x128 (constant (F := Ideal) S_ .f32 0x3F800000#32))
          (Host.exp (F := Ideal) (Host.negf (F := Ideal) z))) i
      = Ideal.logistic (z i) :=
  logistic_spelled (z i)

variable (x0 : Vec Ideal S256x512x64 .f32) (x1 : Vec Ideal S64x128 .f32) (x2 : Vec Ideal S128 .f32)
    (x3 x4 x5 : Vec Ideal S2x128x128 .f32) (x6 x7 x8 x9 x10 x11 : Vec Ideal S2x128 .f32)

/-- The embedded hidden rows. -/
theorem v3_apply (b : Fin 256) (n : Fin 512) (k : Fin 128) :
    val_main_v3 (F := Ideal) x0 x1 x2 (ix3 b n k) = embed x1 x2 (fun f => x0 (ix3 b n f)) k := by
  unfold embed
  refine congrArg₂ (· + ·) ((val_main_v0_apply x0 x1 (ix3 b n k)).trans (Finset.sum_congr rfl fun f _ => ?_))
    (vec3_apply x2 bcast_S128_S1x1x128_2 bcast_S1x1x128_S256x512x128_0_1_2 b n k)
  exact congrArg₂ (· * ·)
    (congrArg x0 (funext fun a => Fin.ext (by match a with | ⟨0, _⟩ => rfl | ⟨1, _⟩ => rfl | ⟨2, _⟩ => rfl)))
    (congrArg x1 (funext fun a => Fin.ext (by match a with | ⟨0, _⟩ => rfl | ⟨1, _⟩ => rfl)))

/-- First layer: the three pre-activations over the embedded rows, and the two gates. -/
theorem v16_apply (b : Fin 256) (n : Fin 512) (k : Fin 128) :
    val_main_v16 (F := Ideal) x0 x1 x2 x3 x6 x7 (ix3 b n k)
      = lin x3 x6 x7 0 (fun j => val_main_v3 (F := Ideal) x0 x1 x2 (ix3 b n j)) k :=
  lin_apply (val_main_v3 (F := Ideal) x0 x1 x2) x3 x6 x7 0 slices_S2x128x128_S1x128x128_0_0_0 slices_S2x128_S1x128_0_0 b n k
theorem v35_apply (b : Fin 256) (n : Fin 512) (k : Fin 128) :
    val_main_v35 (F := Ideal) x0 x1 x2 x4 x8 x9 (ix3 b n k)
      = lin x4 x8 x9 0 (fun j => val_main_v3 (F := Ideal) x0 x1 x2 (ix3 b n j)) k :=
  lin_apply (val_main_v3 (F := Ideal) x0 x1 x2) x4 x8 x9 0 slices_S2x128x128_S1x128x128_0_0_0 slices_S2x128_S1x128_0_0 b n k
theorem v54_apply (b : Fin 256) (n : Fin 512) (k : Fin 128) :
    val_main_v54 (F := Ideal) x0 x1 x2 x5 x10 x11 (ix3 b n k)
      = lin x5 x10 x11 0 (fun j => val_main_v3 (F := Ideal) x0 x1 x2 (ix3 b n j)) k :=
  lin_apply (val_main_v3 (F := Ideal) x0 x1 x2) x5 x10 x11 0 slices_S2x128x128_S1x128x128_0_0_0 slices_S2x128_S1x128_0_0 b n k
theorem v22_apply (i : S256x512x128.Idx) :
    val_main_v22 (F := Ideal) x0 x1 x2 x3 x6 x7 i = Ideal.logistic (val_main_v16 (F := Ideal) x0 x1 x2 x3 x6 x7 i) :=
  sigmoid_apply (val_main_v16 (F := Ideal) x0 x1 x2 x3 x6 x7) i
theorem v41_apply (i : S256x512x128.Idx) :
    val_main_v41 (F := Ideal) x0 x1 x2 x4 x8 x9 i = Ideal.logistic (val_main_v35 (F := Ideal) x0 x1 x2 x4 x8 x9 i) :=
  sigmoid_apply (val_main_v35 (F := Ideal) x0 x1 x2 x4 x8 x9) i

/-- The first layer's hidden rows: the cell of layer 0 of the embedded row. -/
theorem v58_apply (b : Fin 256) (n : Fin 512) (k : Fin 128) :
    val_main_v58 (F := Ideal) x0 x1 x2 x3 x4 x5 x6 x7 x8 x9 x10 x11 (ix3 b n k)
      = cell ⟨x1, x2, x3, x4, x5, x6, x7, x8, x9, x10, x11⟩ 0 (fun j => val_main_v3 (F := Ideal) x0 x1 x2 (ix3 b n j)) k := by
  unfold cell
  show val_main_v41 (F := Ideal) x0 x1 x2 x4 x8 x9 (ix3 b n k)
      * Ideal.tanh (val_main_v22 (F := Ideal) x0 x1 x2 x3 x6 x7 (ix3 b n k) * Ideal.tanh (val_main_v54 (F := Ideal) x0 x1 x2 x5 x10 x11 (ix3 b n k))) = _
  rw [v41_apply, v22_apply, v35_apply, v16_apply, v54_apply]

/-- Second layer: the same over the first layer's hidden rows. -/
theorem v71_apply (b : Fin 256) (n : Fin 512) (k : Fin 128) :
    val_main_v71 (F := Ideal) x0 x1 x2 x3 x4 x5 x6 x7 x8 x9 x10 x11 (ix3 b n k)
      = lin x3 x6 x7 1 (fun j => val_main_v58 (F := Ideal) x0 x1 x2 x3 x4 x5 x6 x7 x8 x9 x10 x11 (ix3 b n j)) k :=
  lin_apply (val_main_v58 (F := Ideal) x0 x1 x2 x3 x4 x5 x6 x7 x8 x9 x10 x11) x3 x6 x7 1 slices_S2x128x128_S1x128x128_1_0_0 slices_S2x128_S1x128_1_0 b n k
theorem v90_apply (b : Fin 256) (n : Fin 512) (k : Fin 128) :
    val_main_v90 (F := Ideal) x0 x1 x2 x3 x4 x5 x6 x7 x8 x9 x10 x11 (ix3 b n k)
      = lin x4 x8 x9 1 (fun j => val_main_v58 (F := Ideal) x0 x1 x2 x3 x4 x5 x6 x7 x8 x9 x10 x11 (ix3 b n j)) k :=
  lin_apply (val_main_v58 (F := Ideal) x0 x1 x2 x3 x4 x5 x6 x7 x8 x9 x10 x11) x4 x8 x9 1 slices_S2x128x128_S1x128x128_1_0_0 slices_S2x128_S1x128_1_0 b n k
theorem v109_apply (b : Fin 256) (n : Fin 512) (k : Fin 128) :
    val_main_v109 (F := Ideal) x0 x1 x2 x3 x4 x5 x6 x7 x8 x9 x10 x11 (ix3 b n k)
      = lin x5 x10 x11 1 (fun j => val_main_v58 (F := Ideal) x0 x1 x2 x3 x4 x5 x6 x7 x8 x9 x10 x11 (ix3 b n j)) k :=
  lin_apply (val_main_v58 (F := Ideal) x0 x1 x2 x3 x4 x5 x6 x7 x8 x9 x10 x11) x5 x10 x11 1 slices_S2x128x128_S1x128x128_1_0_0 slices_S2x128_S1x128_1_0 b n k
theorem v77_apply (i : S256x512x128.Idx) :
    val_main_v77 (F := Ideal) x0 x1 x2 x3 x4 x5 x6 x7 x8 x9 x10 x11 i = Ideal.logistic (val_main_v71 (F := Ideal) x0 x1 x2 x3 x4 x5 x6 x7 x8 x9 x10 x11 i) :=
  sigmoid_apply (val_main_v71 (F := Ideal) x0 x1 x2 x3 x4 x5 x6 x7 x8 x9 x10 x11) i
theorem v96_apply (i : S256x512x128.Idx) :
    val_main_v96 (F := Ideal) x0 x1 x2 x3 x4 x5 x6 x7 x8 x9 x10 x11 i = Ideal.logistic (val_main_v90 (F := Ideal) x0 x1 x2 x3 x4 x5 x6 x7 x8 x9 x10 x11 i) :=
  sigmoid_apply (val_main_v90 (F := Ideal) x0 x1 x2 x3 x4 x5 x6 x7 x8 x9 x10 x11) i

/-- The second layer's hidden rows: the node function of the feature row. -/
theorem v113_apply (b : Fin 256) (n : Fin 512) (k : Fin 128) :
    val_main_v113 (F := Ideal) x0 x1 x2 x3 x4 x5 x6 x7 x8 x9 x10 x11 (ix3 b n k)
      = node ⟨x1, x2, x3, x4, x5, x6, x7, x8, x9, x10, x11⟩ (fun f => x0 (ix3 b n f)) k := by
  unfold node
  have h1 : (fun j => val_main_v58 (F := Ideal) x0 x1 x2 x3 x4 x5 x6 x7 x8 x9 x10 x11 (ix3 b n j))
      = cell ⟨x1, x2, x3, x4, x5, x6, x7, x8, x9, x10, x11⟩ 0 (embed x1 x2 (fun f => x0 (ix3 b n f))) := by
    funext j
    rw [v58_apply]
    exact congrArg (fun h => cell ⟨x1, x2, x3, x4, x5, x6, x7, x8, x9, x10, x11⟩ 0 h j) (funext fun j' => v3_apply x0 x1 x2 b n j')
  rw [← h1]
  unfold cell
  show val_main_v96 (F := Ideal) x0 x1 x2 x3 x4 x5 x6 x7 x8 x9 x10 x11 (ix3 b n k)
      * Ideal.tanh (val_main_v77 (F := Ideal) x0 x1 x2 x3 x4 x5 x6 x7 x8 x9 x10 x11 (ix3 b n k) * Ideal.tanh (val_main_v109 (F := Ideal) x0 x1 x2 x3 x4 x5 x6 x7 x8 x9 x10 x11 (ix3 b n k))) = _
  rw [v96_apply, v77_apply, v90_apply, v71_apply, v109_apply]

/-- THE REFERENCE'S RESULT, at (b, k): the mean of the node function over the 512 nodes of batch entry b. -/
theorem v116_apply (b : Fin 256) (k : Fin 128) :
    val_main_v116 (F := Ideal) x0 x1 x2 x3 x4 x5 x6 x7 x8 x9 x10 x11 (ix2 b k)
      = pooled ⟨x1, x2, x3, x4, x5, x6, x7, x8, x9, x10, x11⟩ x0 (ix2 b k) := by
  unfold pooled
  show Ideal.div (val_main_v114 (F := Ideal) x0 x1 x2 x3 x4 x5 x6 x7 x8 x9 x10 x11 (ix2 b k)) (Ideal.ofBits .f32 0x44000000#32) = _
  refine congrArg (Ideal.div · (Ideal.ofBits .f32 0x44000000#32)) ?_
  rw [val_main_v114_apply]
  show Ideal.ofBits .f32 0x00000000#32 + _ = _
  rw [Ideal.ofBits_zero_f32, zero_add]
  refine Finset.sum_congr rfl fun n _ => ?_
  exact (congrArg (val_main_v113 (F := Ideal) x0 x1 x2 x3 x4 x5 x6 x7 x8 x9 x10 x11)
    (funext fun a => Fin.ext (by match a with | ⟨0, _⟩ => rfl | ⟨1, _⟩ => rfl | ⟨2, _⟩ => rfl))).trans
    (v113_apply x0 x1 x2 x3 x4 x5 x6 x7 x8 x9 x10 x11 b n k)

/-- The reference's result array is the specification's function of the arguments. -/
theorem v116_eq : val_main_v116 (F := Ideal) x0 x1 x2 x3 x4 x5 x6 x7 x8 x9 x10 x11 = pooled ⟨x1, x2, x3, x4, x5, x6, x7, x8, x9, x10, x11⟩ x0 := by
  funext i
  obtain ⟨b, k, rfl⟩ : ∃ (b : Fin 256) (k : Fin 128), i = ix2 b k := ⟨i 0, i 1, eq_ix2 i⟩
  exact v116_apply x0 x1 x2 x3 x4 x5 x6 x7 x8 x9 x10 x11 b k

end Cert.ReferenceIdeal.RefValue

end
-- ==== Proof.lean ====
/-
  The certificate's claim for the childless TreeLSTM node encoder with mean pooling: tree_features [256, 512, 64] are
  embedded to 128 hidden units, passed through two childless TreeLSTM cells (input and output gates sigmoid, candidate
  tanh, each gate's two biases added after its matrix product), and averaged over the 512 nodes of each batch entry.

  The kernel runs 16 grid points, each on a tile of 16 batch entries flattened to 8192 node rows; the reference works on
  the whole [256, 512, 128] array of hidden rows. Over the extended reals both compute, at (b, k),
      (sum over n of node (tree_features (b, n, .)) k) / 512
  with one node function (Proof/Spec.lean): a matrix product into a zero accumulator and the host's dot_general are the
  same sums, a format change is the identity, the kernel's sigmoid and the reference's 1 / (1 + exp (-z)) are one
  function, and both sums over the nodes run over the same 512 terms. No law that needs finite values is used, so the
  precondition is never opened.

  The three frames: the kernel's two are its generated frame certificates; the reference's is its generated run with the
  result dropped. The idealization's ledger is empty. The value claim pairs the kernel's run (Proof/KerValue.lean) with
  the reference's generated run read at an index (Proof/RefValue.lean).
-/
import proofs.«102343_j34626026341055_1_alg».proof.Defs
import proofs.«102343_j34626026341055_1_alg».proof.Proof.Gen.Kernel
import proofs.«102343_j34626026341055_1_alg».proof.Proof.Gen.Kernel.Skeleton
import proofs.«102343_j34626026341055_1_alg».proof.Proof.Gen.Kernel.Launch
import proofs.«102343_j34626026341055_1_alg».proof.Proof.Gen.Kernel.Points
import proofs.«102343_j34626026341055_1_alg».proof.Proof.Gen.Kernel.Frame
import proofs.«102343_j34626026341055_1_alg».proof.Proof.Gen.KernelIdeal
import proofs.«102343_j34626026341055_1_alg».proof.Proof.Gen.KernelIdeal.Skeleton
import proofs.«102343_j34626026341055_1_alg».proof.Proof.Gen.KernelIdeal.Launch
import proofs.«102343_j34626026341055_1_alg».proof.Proof.Gen.KernelIdeal.Points
import proofs.«102343_j34626026341055_1_alg».proof.Proof.Gen.KernelIdeal.Frame
import proofs.«102343_j34626026341055_1_alg».proof.Proof.Gen.ReferenceIdeal
import proofs.«102343_j34626026341055_1_alg».proof.Proof.Gen.Pre_finite_inputs
import proofs.«102343_j34626026341055_1_alg».proof.Proof.Gen.KernelIdeal.Value
import proofs.«102343_j34626026341055_1_alg».proof.Proof.Gen.ReferenceIdeal.Run
import proofs.«102343_j34626026341055_1_alg».proof.Proof.Gen.ReferenceIdeal.Read
import proofs.«102343_j34626026341055_1_alg».proof.Proof.KerValue
import proofs.«102343_j34626026341055_1_alg».proof.Proof.RefValue
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: its ledger is empty. -/
theorem preserves : Cert.preserves_Kernel_KernelIdeal := trivial

/-- From memories that agree on the twelve arguments both idealized programs end with the result array at the
    specification's mean of the node function: the kernel block by block, the reference operation by operation. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v116_eq, Cert.ReferenceIdeal.RefValue.v116_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
